-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S65536x128 : Shape := ⟨2, ![65536, 128]⟩
abbrev S8192x128 : Shape := ⟨2, ![8192, 128]⟩
abbrev S64 : Shape := ⟨1, ![64]⟩
abbrev S64x1 : Shape := ⟨2, ![64, 1]⟩
abbrev S128x128 : Shape := ⟨2, ![128, 128]⟩
abbrev S64x64 : Shape := ⟨2, ![64, 64]⟩
abbrev S128x64 : Shape := ⟨2, ![128, 64]⟩
abbrev S8192x64 : Shape := ⟨2, ![8192, 64]⟩

abbrev nBuf : Space → Nat
  | .hbm => 5
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S65536x128, .f32⟩
  | .hbm, ⟨3, _⟩ => ⟨S65536x128, .f32⟩
  | .hbm, ⟨4, _⟩ => ⟨S16x4096x128, .f32⟩
  | .local _ .vmem, ⟨0, _⟩ => ⟨S8192x128, .f32⟩
  | .local _ .vmem, ⟨1, _⟩ => ⟨S8192x128, .f32⟩
  | .local _ .vmem, ⟨2, _⟩ => ⟨S64x128, .f32⟩
  | .local _ .vmem, ⟨3, _⟩ => ⟨S8192x128, .f32⟩
  | .local _ .vmem, ⟨4, _⟩ => ⟨S8192x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x128_S65536x128 : S16x4096x128.ShapeCasts S65536x128
  shapeCasts_S65536x128_S16x4096x128 : S65536x128.ShapeCasts S16x4096x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_call0_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.MemorySpec.lean ====
/-
  The mathematics of the memory-attention step, one token row at a time, on the extended reals.

  A token row `x` (128 lanes) is scaled to unit length, with a floor on the norm; the 64 memory rows are scaled the
  same way; the row's similarities with the memory rows, divided by a temperature, are turned into softmax weights;
  the result is the unit row plus the weighted sum of the unit memory rows.

  Two spellings of that function are defined: the one that divides by `max (√‖v‖²) floor`, divides the
  similarities by the temperature and shifts the softmax by the row maximum (`enhanced`), and the one that
  multiplies by `1 / √(max ‖v‖² floor²)`, multiplies the similarities by the reciprocal temperature and shifts the
  softmax by that same constant (`enhancedK`). On rows of real numbers they are one function (the algebra module).
-/
import Idealize.ShloMosaic.PureOps.Ideal
import Idealize.ShloMosaic.Lib.ValueIdx

noncomputable section

namespace Cert.EmaMemory

open Idealize.ShloMosaic Idealize.ShloMosaic.ValueIdx

/-- The floor on a row's norm: the f32 word nearest `1e-12`, as the exact dyadic it denotes. -/
def normFloor : EReal := Ideal.ofBits .f32 0x2B8CBCCC#32
/-- The softmax temperature: the f32 word nearest `0.07`, as the exact dyadic it denotes. -/
def temperature : EReal := Ideal.ofBits .f32 0x3D8F5C29#32
/-- The square of the norm floor, as a rational. -/
def normFloorSq : EReal := ((5316911940649 / 5316911983139663491615228241121378304 : ℝ) : EReal)
/-- The reciprocal of the temperature, as a rational. -/
def invTemperature : EReal := ((134217728 / 9395241 : ℝ) : EReal)

/-- A row over the larger of its norm and the floor. -/
def unitRow (v : Fin 128 → EReal) (d : Fin 128) : EReal :=
  Ideal.div (v d) (max (Ideal.sqrt (∑ k, v k * v k)) normFloor)

/-- A row times the reciprocal root of the larger of its squared norm and the squared floor. -/
def unitRowK (v : Fin 128 → EReal) (d : Fin 128) : EReal :=
  v d * Ideal.rsqrt (max (∑ k, v k * v k) normFloorSq)

/-- The inner products of a row with each row of a bank. -/
def scores (u : Fin 128 → EReal) (B : Fin 64 → Fin 128 → EReal) (j : Fin 64) : EReal :=
  ∑ d, u d * B j d

/-- Softmax of the scores over the temperature, shifted by the largest. -/
def attention (s : Fin 64 → EReal) (j : Fin 64) : EReal :=
  Ideal.div
    (Ideal.exp (Ideal.div (s j) temperature - max ⊥ ((Finset.univ : Finset (Fin 64)).fold max ⊥ fun j' => Ideal.div (s j') temperature)))
    (∑ i, Ideal.exp (Ideal.div (s i) temperature - max ⊥ ((Finset.univ : Finset (Fin 64)).fold max ⊥ fun j' => Ideal.div (s j') temperature)))

/-- Softmax of the scores times the reciprocal temperature, shifted by that reciprocal. -/
def attentionK (s : Fin 64 → EReal) (j : Fin 64) : EReal :=
  Ideal.div (Ideal.exp (s j * invTemperature - invTemperature)) (∑ i, Ideal.exp (s i * invTemperature - invTemperature))

/-- The enhanced row: the unit row plus the attention-weighted sum of the unit memory rows. -/
def enhanced (x : Fin 128 → EReal) (M : Fin 64 → Fin 128 → EReal) (d : Fin 128) : EReal :=
  unitRow x d + ∑ j, attention (scores (unitRow x) fun j' => unitRow (M j')) j * unitRow (M j) d

/-- The same with the row scaled by `unitRowK` and the weights by `attentionK`. -/
def enhancedK (x : Fin 128 → EReal) (M : Fin 64 → Fin 128 → EReal) (d : Fin 128) : EReal :=
  unitRowK x d + ∑ j, attentionK (scores (unitRowK x) fun j' => unitRow (M j')) j * unitRow (M j) d

/-- Token `r` of the flattened `[65536, 128]` array is token `(r / 4096, r % 4096)` of the `[16, 4096, 128]` one. -/
def tokenIdx (r : Fin 65536) (d : Fin 128) : (⟨3, ![16, 4096, 128]⟩ : Shape).Idx :=
  ix3 (⟨r.val / 4096, by have := r.isLt; omega⟩ : Fin 16) (⟨r.val % 4096, by omega⟩ : Fin 4096) d

/-- The whole result as a `[65536, 128]` array: row `r` is the enhanced token `r`. -/
def enhancedTokens (x0 : (⟨3, ![16, 4096, 128]⟩ : Shape).Idx → EReal) (x1 : (⟨2, ![64, 128]⟩ : Shape).Idx → EReal) :
    (⟨2, ![65536, 128]⟩ : Shape).Idx → EReal :=
  fun i => enhanced (fun d => x0 (tokenIdx (i 0) d)) (fun j d => x1 (ix2 j d)) (i 1)

end Cert.EmaMemory

end
-- ==== Proof.KernelRows.lean ====
/-
  The kernel body's arithmetic, read one element at a time on the extended reals.

  The body takes an [8192,128] block of token rows and the [64,128] memory bank. It scales each memory row by the
  larger of its norm and a floor (a lane sum, a root, a maximum, a division), scales each token row by the
  reciprocal root of the larger of its squared norm and the squared floor (the squared norm being the squares
  times the all-ones [128,128] matrix), takes the inner products of the unit token rows with the unit memory rows,
  multiplies them by the reciprocal temperature and subtracts that reciprocal, exponentiates, divides each
  exponential by its row's sum (the exponentials times the all-ones [64,64] matrix), and adds to each unit token
  row the weighted sum of the unit memory rows.

  Each stage is named below as a function of the two blocks and read at an index (p, j) or (p, d): a lane sum is a
  sum over `Fin 128`, a matrix product into the zero block is the sum over its contracted coordinate, the word
  0x3F800000 is one, and the two named constants are the table's rationals. Composed, the stages are the body's
  stored value, and at row p, lane q that value is `enhancedK` of block row p and the memory bank.
-/
import proofs.«164682_g85598698209303_cont_9to1_m_192_6_alg».proof.Proof.Gen.KernelIdeal.Skeleton
import proofs.«164682_g85598698209303_cont_9to1_m_192_6_alg».proof.Proof.MemorySpec
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

set_option synthInstance.maxSize 4096

noncomputable section

namespace Cert.EmaMemory.KernelRows

open Cert.KernelIdeal Cert.KernelIdeal.Gen Idealize.ShloMosaic Idealize.ShloMosaic.ValueIdx

/-- The memory bank block, each row over the larger of its norm and the floor. -/
def memUnit (mb : Vec Ideal S64x128 .f32) : FVec Ideal S64x128 .f32 :=
  divf mb (broadcastTo S64x128
    (maximumf
      (sqrt (shapeCast S64x1
        (multiReduction .add [1] S64 (mulf mb mb) 0x00000000#32 reduces_S64x128_S64 (.inl rfl) rfl)
        shapeCasts_S64_S64x1))
      (broadcast S64x1 (Scalar.ofBits .f32 0x2B8CBCCC#32)))
    broadcasts_S64x1_S64x128)

/-- The lane sum of a [64,128] block at row j is the sum over the 128 lanes. -/
theorem rowSum_apply (src : FVec Ideal S64x128 .f32) (j : Fin 64) :
    multiReduction .add [1] S64 src 0x00000000#32 reduces_S64x128_S64 (.inl rfl) rfl (ix1 j)
      = ∑ k : Fin 128, src (ix2 j k) := by
  refine (Ideal.multiReduction_add_single src 0x00000000#32 reduces_S64x128_S64 (.inl rfl) rfl (ix1 j)).trans ?_
  refine Finset.sum_congr rfl fun k _ => congrArg src ?_
  funext a
  match a with
  | ⟨0, _⟩ => rfl
  | ⟨1, _⟩ => rfl

/-- A [64] vector cast to a [64,1] column reads, at (j, 0), the vector at j. -/
theorem col_apply {α : Type} (x : S64.Idx → α) (j : Fin 64) (u : Fin 1) :
    shapeCast S64x1 x shapeCasts_S64_S64x1 (ix2 j u) = x (ix1 j) :=
  shapeCast_apply x shapeCasts_S64_S64x1 _ _ (by
    have hu : u.val = 0 := by omega
    rw [Shape.rowMajor_val_two, Shape.rowMajor_val_one]
    show j.val = j.val * 1 + u.val
    omega)

/-- A [64,1] column broadcast along the lanes reads, at (j, d), the column at (j, 0). -/
theorem lanes_apply {α : Type} (x : S64x1.Idx → α) (j : Fin 64) (d : Fin 128) :
    broadcastTo S64x128 x broadcasts_S64x1_S64x128 (ix2 j d) = x (ix2 j (0 : Fin 1)) := by
  refine broadcastTo_apply x broadcasts_S64x1_S64x128 (ix2 j d) (ix2 j (0 : Fin 1)) fun ax => ?_
  match ax with
  | ⟨0, _⟩ => rfl
  | ⟨1, _⟩ => rfl

theorem memUnit_apply (mb : Vec Ideal S64x128 .f32) (j : Fin 64) (d : Fin 128) :
    memUnit mb (ix2 j d) = unitRow (fun d' => mb (ix2 j d')) d := by
  unfold memUnit unitRow
  rw [divf_apply, lanes_apply, maximumf_apply]
  show Ideal.div _ (max (Ideal.sqrt (shapeCast S64x1 _ shapeCasts_S64_S64x1 (ix2 j (0 : Fin 1)))) _) = _
  rw [col_apply, rowSum_apply]
  rfl

/-! The contraction S8192x128 × S128x128 → S8192x128: its operand indices, axis by axis. -/
theorem lhs_sq_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_sq_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_sq_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_sq_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product into the zero block, at (p, q): the sum over the 128 contracted coordinates. -/
theorem sq_apply (l : FVec Ideal S8192x128 .f32) (r : FVec Ideal S128x128 .f32) (p : Fin 8192) (q : Fin 128) :
    matmul dot_S8192x128_S128x128_S8192x128_1_0_0_1_n_n none l r (constant (F := Ideal) S8192x128 .f32 0x00000000#32) (ix2 p q)
      = ∑ k : Fin 128, l (ix2 p k) * r (ix2 k q) := by
  refine (Ideal.matmul_constant_zero_apply dot_S8192x128_S128x128_S8192x128_1_0_0_1_n_n none l r (ix2 p q)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

/-! The contraction S8192x128 × S128x64 → S8192x64: its operand indices, axis by axis. -/
theorem lhs_sc_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_sc_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_sc_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_sc_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product into the zero block, at (p, q): the sum over the 128 contracted coordinates. -/
theorem sc_apply (l : FVec Ideal S8192x128 .f32) (r : FVec Ideal S128x64 .f32) (p : Fin 8192) (q : Fin 64) :
    matmul dot_S8192x128_S128x64_S8192x64_1_0_0_1_n_n none l r (constant (F := Ideal) S8192x64 .f32 0x00000000#32) (ix2 p q)
      = ∑ k : Fin 128, l (ix2 p k) * r (ix2 k q) := by
  refine (Ideal.matmul_constant_zero_apply dot_S8192x128_S128x64_S8192x64_1_0_0_1_n_n none l r (ix2 p q)).trans ?_
  rw [← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p q) ((contrEquiv1 dot_S8192x128_S128x64_S8192x64_1_0_0_1_n_n 128 rfl rfl).symm k) = ix2 p k := funext fun a => Fin.ext (by
    match a with
    | ⟨0, _⟩ => exact lhs_sc_0 _ _
    | ⟨1, _⟩ => exact (lhs_sc_1 _ _).trans hk)
  have er : dot_S8192x128_S128x64_S8192x64_1_0_0_1_n_n.rhsIdx (ix2 p q) ((contrEquiv1 dot_S8192x128_S128x64_S8192x64_1_0_0_1_n_n 128 rfl rfl).symm k) = ix2 k q := funext fun a => Fin.ext (by
    match a with
    | ⟨0, _⟩ => exact (rhs_sc_0 _ _).trans hk
    | ⟨1, _⟩ => exact rhs_sc_1 _ _)
  rw [el, er]

/-! The contraction S8192x64 × S64x64 → S8192x64: its operand indices, axis by axis. -/
theorem lhs_sm_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_sm_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_sm_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_sm_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product into the zero block, at (p, q): the sum over the 64 contracted coordinates. -/
theorem sm_apply (l : FVec Ideal S8192x64 .f32) (r : FVec Ideal S64x64 .f32) (p : Fin 8192) (q : Fin 64) :
    matmul dot_S8192x64_S64x64_S8192x64_1_0_0_1_n_n none l r (constant (F := Ideal) S8192x64 .f32 0x00000000#32) (ix2 p q)
      = ∑ k : Fin 64, l (ix2 p k) * r (ix2 k q) := by
  refine (Ideal.matmul_constant_zero_apply dot_S8192x64_S64x64_S8192x64_1_0_0_1_n_n none l r (ix2 p q)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k := funext fun a => Fin.ext (by
    match a with
    | ⟨0, _⟩ => exact lhs_sm_0 _ _
    | ⟨1, _⟩ => exact (lhs_sm_1 _ _).trans hk)
  have er : dot_S8192x64_S64x64_S8192x64_1_0_0_1_n_n.rhsIdx (ix2 p q) ((contrEquiv1 dot_S8192x64_S64x64_S8192x64_1_0_0_1_n_n 64 rfl rfl).symm k) = ix2 k q := funext fun a => Fin.ext (by
    match a with
    | ⟨0, _⟩ => exact (rhs_sm_0 _ _).trans hk
    | ⟨1, _⟩ => exact rhs_sm_1 _ _)
  rw [el, er]

/-! The contraction S8192x64 × S64x128 → S8192x128: its operand indices, axis by axis. -/
theorem lhs_mix_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhs_mix_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhs_mix_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhs_mix_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The product into the zero block, at (p, q): the sum over the 64 contracted coordinates. -/
theorem mix_apply (l : FVec Ideal S8192x64 .f32) (r : FVec Ideal S64x128 .f32) (p : Fin 8192) (q : Fin 128) :
    matmul dot_S8192x64_S64x128_S8192x128_1_0_0_1_n_n none l r (constant (F := Ideal) S8192x128 .f32 0x00000000#32) (ix2 p q)
      = ∑ k : Fin 64, l (ix2 p k) * r (ix2 k q) := by
  refine (Ideal.matmul_constant_zero_apply dot_S8192x64_S64x128_S8192x128_1_0_0_1_n_n none l r (ix2 p q)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q) ((contrEquiv1 dot_S8192x64_S64x128_S8192x128_1_0_0_1_n_n 64 rfl rfl).symm k) = ix2 p k := funext fun a => Fin.ext (by
    match a with
    | ⟨0, _⟩ => exact lhs_mix_0 _ _
    | ⟨1, _⟩ => exact (lhs_mix_1 _ _).trans hk)
  have er : dot_S8192x64_S64x128_S8192x128_1_0_0_1_n_n.rhsIdx (ix2 p q) ((contrEquiv1 dot_S8192x64_S64x128_S8192x128_1_0_0_1_n_n 64 rfl rfl).symm k) = ix2 k q := funext fun a => Fin.ext (by
    match a with
    | ⟨0, _⟩ => exact (rhs_mix_0 _ _).trans hk
    | ⟨1, _⟩ => exact rhs_mix_1 _ _)
  rw [el, er]

/-! ## The constants -/

/-- The word 0x3F800000 denotes one. -/
theorem one_word : Ideal.ofBits .f32 0x3F800000#32 = 1 := by
  simp [Ideal.ofBits, Ideal.ieee, -EReal.coe_mul]; norm_num

/-- The named squared floor is the table's rational. -/
theorem eps_word : Named.named (F := Ideal) κ "eps_squared" (φ := .f32) 0x179ABE15#32 = normFloorSq :=
  IdealRules.named_const.ideal_named_scalar κ "eps_squared" _ _ rfl

/-- The named reciprocal temperature is the table's rational. -/
theorem it_word : Named.named (F := Ideal) κ "inv_temperature" (φ := .f32) 0x41649249#32 = invTemperature :=
  IdealRules.named_const.ideal_named_scalar κ "inv_temperature" _ _ rfl

/-! ## The token block -/

/-- The token block as the body reads it (a cast to its own shape). -/
def tok (xb : Vec Ideal S8192x128 .f32) : FVec Ideal S8192x128 .f32 :=
  shapeCast S8192x128 xb shapeCasts_S8192x128_S8192x128

theorem tok_eq (xb : Vec Ideal S8192x128 .f32) : tok xb = xb := shapeCast_self xb _

/-- Each row's squared norm, on every lane of the row: the squares times the all-ones matrix. -/
def tokSq (xb : Vec Ideal S8192x128 .f32) : FVec Ideal S8192x128 .f32 :=
  matmul dot_S8192x128_S128x128_S8192x128_1_0_0_1_n_n none (mulf (tok xb) (tok xb))
    (broadcast S128x128 (Scalar.ofBits .f32 0x3F800000#32)) (constant S8192x128 .f32 0x00000000#32)

theorem tokSq_apply (xb : Vec Ideal S8192x128 .f32) (p : Fin 8192) (q : Fin 128) :
    tokSq xb (ix2 p q) = ∑ k : Fin 128, xb (ix2 p k) * xb (ix2 p k) := by
  unfold tokSq
  rw [tok_eq, sq_apply]
  refine Finset.sum_congr rfl fun k _ => ?_
  rw [mulf_apply, broadcast_apply]
  show _ * Ideal.ofBits .f32 0x3F800000#32 = _
  rw [one_word, mul_one]

/-- The token block, each row times the reciprocal root of the larger of its squared norm and the squared floor. -/
def tokUnit (xb : Vec Ideal S8192x128 .f32) : FVec Ideal S8192x128 .f32 :=
  mulf (tok xb) (rsqrt (maximumf (tokSq xb) (broadcast S8192x128 (Named.named κ "eps_squared" 0x179ABE15#32))))

theorem tokUnit_apply (xb : Vec Ideal S8192x128 .f32) (p : Fin 8192) (d : Fin 128) :
    tokUnit xb (ix2 p d) = unitRowK (fun d' => xb (ix2 p d')) d := by
  unfold tokUnit unitRowK
  rw [mulf_apply, tok_eq]
  show _ * Ideal.rsqrt (max (tokSq xb (ix2 p d)) (Named.named (F := Ideal) κ "eps_squared" (φ := .f32) 0x179ABE15#32)) = _
  rw [tokSq_apply, eps_word]

/-! ## Scores, weights, result -/

/-- The inner products of the unit token rows with the unit memory rows. -/
def scoresK (xb : Vec Ideal S8192x128 .f32) (mb : Vec Ideal S64x128 .f32) : FVec Ideal S8192x64 .f32 :=
  matmul dot_S8192x128_S128x64_S8192x64_1_0_0_1_n_n none (tokUnit xb)
    (transpose S128x64 [1, 0] (memUnit mb) transposes_S64x128_p1_0_S128x64) (constant S8192x64 .f32 0x00000000#32)

theorem scoresK_apply (xb : Vec Ideal S8192x128 .f32) (mb : Vec Ideal S64x128 .f32) (p : Fin 8192) (j : Fin 64) :
    scoresK xb mb (ix2 p j)
      = scores (unitRowK fun d => xb (ix2 p d)) (fun j' => unitRow fun d => mb (ix2 j' d)) j := by
  unfold scoresK scores
  rw [sc_apply]
  refine Finset.sum_congr rfl fun d _ => ?_
  rw [tokUnit_apply, transpose_ix2_apply, memUnit_apply]

/-- The exponentials of the scores times the reciprocal temperature, shifted by that reciprocal. -/
def expK (xb : Vec Ideal S8192x128 .f32) (mb : Vec Ideal S64x128 .f32) : FVec Ideal S8192x64 .f32 :=
  exp (subf (mulf (scoresK xb mb) (broadcast S8192x64 (Named.named κ "inv_temperature" 0x41649249#32)))
    (broadcast S8192x64 (Named.named κ "inv_temperature" 0x41649249#32)))

theorem expK_apply (xb : Vec Ideal S8192x128 .f32) (mb : Vec Ideal S64x128 .f32) (p : Fin 8192) (j : Fin 64) :
    expK xb mb (ix2 p j)
      = Ideal.exp (scores (unitRowK fun d => xb (ix2 p d)) (fun j' => unitRow fun d => mb (ix2 j' d)) j
          * invTemperature - invTemperature) := by
  unfold expK
  show Ideal.exp (scoresK xb mb (ix2 p j) * Named.named (F := Ideal) κ "inv_temperature" (φ := .f32) 0x41649249#32
    - Named.named (F := Ideal) κ "inv_temperature" (φ := .f32) 0x41649249#32) = _
  rw [scoresK_apply, it_word]

/-- The softmax weights: each exponential over its row's sum (the exponentials times the all-ones matrix). -/
def weightsK (xb : Vec Ideal S8192x128 .f32) (mb : Vec Ideal S64x128 .f32) : FVec Ideal S8192x64 .f32 :=
  divf (expK xb mb)
    (matmul dot_S8192x64_S64x64_S8192x64_1_0_0_1_n_n none (expK xb mb)
      (broadcast S64x64 (Scalar.ofBits .f32 0x3F800000#32)) (constant S8192x64 .f32 0x00000000#32))

theorem weightsK_apply (xb : Vec Ideal S8192x128 .f32) (mb : Vec Ideal S64x128 .f32) (p : Fin 8192) (j : Fin 64) :
    weightsK xb mb (ix2 p j)
      = attentionK (scores (unitRowK fun d => xb (ix2 p d)) fun j' => unitRow fun d => mb (ix2 j' d)) j := by
  unfold weightsK attentionK
  rw [divf_apply, sm_apply, expK_apply]
  refine congrArg (Ideal.div _) (Finset.sum_congr rfl fun i _ => ?_)
  rw [expK_apply, broadcast_apply]
  show _ * Ideal.ofBits .f32 0x3F800000#32 = _
  rw [one_word, mul_one]

/-- The stored block: the unit token rows plus the weighted sums of the unit memory rows. -/
def outK (xb : Vec Ideal S8192x128 .f32) (mb : Vec Ideal S64x128 .f32) : FVec Ideal S8192x128 .f32 :=
  addf (tokUnit xb)
    (matmul dot_S8192x64_S64x128_S8192x128_1_0_0_1_n_n none (weightsK xb mb) (memUnit mb)
      (constant S8192x128 .f32 0x00000000#32))

theorem outK_apply (xb : Vec Ideal S8192x128 .f32) (mb : Vec Ideal S64x128 .f32) (p : Fin 8192) (q : Fin 128) :
    outK xb mb (ix2 p q) = enhancedK (fun d => xb (ix2 p d)) (fun j d => mb (ix2 j d)) q := by
  unfold outK enhancedK
  rw [addf_apply, tokUnit_apply, mix_apply]
  refine congrArg (_ + ·) (Finset.sum_congr rfl fun j _ => ?_)
  rw [weightsK_apply, memUnit_apply]

/-- The body's payload is the composition of the stages above. -/
theorem k0_pay1_eq_outK (xb : Vec Ideal S8192x128 .f32) (mb : Vec Ideal S64x128 .f32) :
    k0_pay1 (F := Ideal) xb mb = outK xb mb := rfl

/-- The body's stored value at row p, lane q is the enhanced row of block row p against the memory bank block. -/
theorem kernel_rows (xb : Vec Ideal S8192x128 .f32) (mb : Vec Ideal S64x128 .f32) (p : Fin 8192) (q : Fin 128) :
    k0_pay1 (F := Ideal) xb mb (ix2 p q)
      = Cert.EmaMemory.enhancedK (fun d => xb (ix2 p d)) (fun j d => mb (ix2 j d)) q := by
  rw [k0_pay1_eq_outK, outK_apply]

end Cert.EmaMemory.KernelRows

end
-- ==== Proof.ReferenceRows.lean ====
/-
  The reference program's `[65536, 128]` array before its last reshape, read row by row.

  Row `r` of that array is the enhanced token `r`: the token's 128 lanes over the larger of their norm and the
  floor, plus the softmax-weighted sum of the 64 memory rows scaled the same way. The stages are read from the
  inputs upward, each at explicit coordinates:
  the unit memory rows (`memRow`) and the unit token rows (`tokRow`, through the reshape's index arithmetic
  `(r·128 + d) / 524288 = r / 4096`, `(r·128 + d) / 128 % 4096 = r % 4096`, `(r·128 + d) % 128 = d`);
  the similarities as a sum over the 128 lanes (`scoreAt`); the logits (`logitAt`); the row's largest logit as a
  fold of `max` from `-∞` over the 64 memory rows (`foldAt`) and the shift it gives (`shiftAt`); the exponentials
  (`expAt`) and the weights (`weightAt`); and last the sum of the unit token row and the weighted memory rows
  (`reference_rows`).
-/
import proofs.«164682_g85598698209303_cont_9to1_m_192_6_alg».proof.Proof.Gen.ReferenceIdeal.Read
import proofs.«164682_g85598698209303_cont_9to1_m_192_6_alg».proof.Proof.MemorySpec
import Idealize.ShloMosaic.PureOps.Ideal.Laws
import Idealize.ShloMosaic.Lib.ValueIdx
import Idealize.ShloMosaic.Lib.Pipeline.Value
import Idealize.ShloMosaic.PureOps.Reduce

noncomputable section

namespace Cert.EmaMemory.RefRows

open Cert.ReferenceIdeal Cert.ReferenceIdeal.Gen Cert.ReferenceIdeal.Read Idealize.ShloMosaic Idealize.ShloMosaic.ValueIdx

/-- The memory-side index chain of the norm: row `j`, lane `k`. -/
theorem memIdx (j : Fin 64) (d k : Fin 128) :
    idx_main_v10 (idx_main_v11 (idx_main_v15 (ix2 j d))) k = ix2 j k :=
  funext fun a => Fin.ext (by match a with | ⟨0, _⟩ => rfl | ⟨1, _⟩ => rfl)

/-- Memory row `j` over the larger of its norm and the floor. -/
theorem memRow (x1 : (⟨S64x128, .f32⟩ : BufTy).Contents (Elt Ideal)) (j : Fin 64) (d : Fin 128) :
    val_main_v16 (F := Ideal) x1 (ix2 j d) = unitRow (fun d' => x1 (ix2 j d')) d := by
  rw [val_main_v16_apply, val_main_v15_apply, val_main_v14_apply, val_main_v13_apply, val_main_cst_2_apply,
    val_main_v12_apply, val_main_v11_apply, val_main_v10_apply, val_main_cst_1_apply]
  simp only [val_main_v9_apply, memIdx, Ideal.hostDivf_def, Ideal.mulf_def, Ideal.maximumf_def,
    Ideal.hostUnary_sqrt_def, Ideal.ofBits_def, Ideal.ofBits_zero_f32, zero_add]
  rfl

/-- Flattened token `r`, lane `d`, read back through the reshape: it is `tokenIdx r d`. -/
theorem tokIdx8 (r : Fin 65536) (d : Fin 128) : idx_main_v8 (ix2 r d) = tokenIdx r d :=
  funext fun a => Fin.ext (by
    have hr := r.isLt
    have hd := d.isLt
    match a with
    | ⟨0, _⟩ => show (r.val * 128 + d.val) / 524288 = r.val / 4096; omega
    | ⟨1, _⟩ => show (r.val * 128 + d.val) / 128 % 4096 = r.val % 4096; omega
    | ⟨2, _⟩ => show (r.val * 128 + d.val) % 128 = d.val; omega)

/-- The token-side index chain of the norm: token `r`, lane `k`. -/
theorem tokIdx1 (r : Fin 65536) (d k : Fin 128) :
    idx_main_v1 (idx_main_v2 (idx_main_v6 (tokenIdx r d))) k = tokenIdx r k :=
  funext fun a => Fin.ext (by match a with | ⟨0, _⟩ => rfl | ⟨1, _⟩ => rfl | ⟨2, _⟩ => rfl)

/-- Token `r` over the larger of its norm and the floor. -/
theorem tokRow (x0 : (⟨S16x4096x128, .f32⟩ : BufTy).Contents (Elt Ideal)) (r : Fin 65536) (d : Fin 128) :
    val_main_v8 (F := Ideal) x0 (ix2 r d) = unitRow (fun d' => x0 (tokenIdx r d')) d := by
  rw [val_main_v8_apply, tokIdx8, val_main_v7_apply, val_main_v6_apply, val_main_v5_apply, val_main_v4_apply,
    val_main_cst_0_apply, val_main_v3_apply, val_main_v2_apply, val_main_v1_apply, val_main_cst_apply]
  simp only [val_main_v0_apply, tokIdx1, Ideal.hostDivf_def, Ideal.mulf_def, Ideal.maximumf_def,
    Ideal.hostUnary_sqrt_def, Ideal.ofBits_def, Ideal.ofBits_zero_f32, zero_add]
  rfl

/-- The left operand's index in the similarity product: token `r`, lane `k`. -/
theorem lidx18 (r : Fin 65536) (j : Fin 64) (k : Fin 128) : lidx_main_v18 (ix2 r j) k = ix2 r k :=
  funext fun a => Fin.ext (by match a with | ⟨0, _⟩ => rfl | ⟨1, _⟩ => rfl)

/-- The right operand's index, read back through the transpose: memory row `j`, lane `k`. -/
theorem ridx18 (r : Fin 65536) (j : Fin 64) (k : Fin 128) :
    idx_main_v17 (ridx_main_v18 (ix2 r j) k) = ix2 j k :=
  funext fun a => Fin.ext (by match a with | ⟨0, _⟩ => rfl | ⟨1, _⟩ => rfl)

/-- The similarity of token `r` with memory row `j`: the sum over the 128 lanes of the two unit rows' products. -/
theorem scoreAt (x0 : (⟨S16x4096x128, .f32⟩ : BufTy).Contents (Elt Ideal))
    (x1 : (⟨S64x128, .f32⟩ : BufTy).Contents (Elt Ideal)) (r : Fin 65536) (j : Fin 64) :
    val_main_v18 (F := Ideal) x0 x1 (ix2 r j)
      = scores (unitRow fun d' => x0 (tokenIdx r d')) (fun j' => unitRow fun d' => x1 (ix2 j' d')) j := by
  rw [val_main_v18_apply]
  simp only [val_main_v17_apply, lidx18, ridx18, tokRow, memRow]
  rfl

/-- The similarities of token `r` with the 64 unit memory rows. -/
abbrev tokScores (x0 : (⟨S16x4096x128, .f32⟩ : BufTy).Contents (Elt Ideal))
    (x1 : (⟨S64x128, .f32⟩ : BufTy).Contents (Elt Ideal)) (r : Fin 65536) : Fin 64 → EReal :=
  scores (unitRow fun d' => x0 (tokenIdx r d')) (fun j' => unitRow fun d' => x1 (ix2 j' d'))

/-- The word `0xFF800000` denotes `-∞`. -/
theorem negInf : Ideal.ofBits .f32 0xFF800000#32 = (⊥ : EReal) := by
  simp [Ideal.ofBits, Ideal.ieee]

/-- A logit: the similarity over the temperature. -/
theorem logitAt (x0 : (⟨S16x4096x128, .f32⟩ : BufTy).Contents (Elt Ideal))
    (x1 : (⟨S64x128, .f32⟩ : BufTy).Contents (Elt Ideal)) (r : Fin 65536) (j : Fin 64) :
    val_main_v20 (F := Ideal) x0 x1 (ix2 r j) = Ideal.div (tokScores x0 x1 r j) temperature := by
  rw [val_main_v20_apply, val_main_v19_apply, val_main_cst_3_apply, scoreAt]
  rfl

/-- Dropping the second axis of a `[65536, 64]` array leaves its rows. -/
theorem redRow : S65536x64.Reduces [1] S65536 := by decide

/-- Row `r` with lane `k` put back on the dropped axis. -/
theorem liftRow (r : Fin 65536) (k : Fin 64) : redRow.lift (ix1 r) k = ix2 r k :=
  funext fun a => Fin.ext (by match a with | ⟨0, _⟩ => rfl | ⟨1, _⟩ => rfl)

/-- Row `r`'s largest logit: the fold of `max` from `-∞` over the 64 memory rows. -/
theorem foldAt (x0 : (⟨S16x4096x128, .f32⟩ : BufTy).Contents (Elt Ideal))
    (x1 : (⟨S64x128, .f32⟩ : BufTy).Contents (Elt Ideal)) (r : Fin 65536) :
    val_main_v21 (F := Ideal) x0 x1 (ix1 r)
      = (Finset.univ : Finset (Fin 64)).fold max ⊥ fun j' => Ideal.div (tokScores x0 x1 r j') temperature := by
  unfold val_main_v21
  refine (Host.reduce_eq_fold_single (FloatOps.maximumf (F := Ideal) (φ := .f32)) (val_main_v20 (F := Ideal) x0 x1)
    (val_main_cst_4 (F := Ideal)) reducesTo_S65536x64_S65536_d1 redRow h_S_ (ix1 r)).trans ?_
  have hinit : (val_main_cst_4 (F := Ideal)) (Shape.Idx.first h_S_) = (⊥ : EReal) := by
    rw [val_main_cst_4_apply]; exact negInf
  have hfun : (val_main_v20 (F := Ideal) x0 x1 ∘ redRow.lift (ix1 r))
      = fun j' : Fin 64 => Ideal.div (tokScores x0 x1 r j') temperature := by
    refine funext fun (k : Fin 64) => ?_
    show val_main_v20 (F := Ideal) x0 x1 (redRow.lift (ix1 r) k) = Ideal.div (tokScores x0 x1 r k) temperature
    rw [liftRow, logitAt]
  rw [hinit, hfun]
  rfl

/-- The row's index read back through the two broadcasts of its maximum. -/
theorem idx24 (r : Fin 65536) (j : Fin 64) : idx_main_v24 (idx_main_v25 (ix2 r j)) = ix1 r :=
  funext fun a => Fin.ext (by match a with | ⟨0, _⟩ => rfl)

/-- The shift of row `r`: the larger of `-∞` and the row's largest logit. -/
theorem shiftAt (x0 : (⟨S16x4096x128, .f32⟩ : BufTy).Contents (Elt Ideal))
    (x1 : (⟨S64x128, .f32⟩ : BufTy).Contents (Elt Ideal)) (r : Fin 65536) :
    val_main_v23 (F := Ideal) x0 x1 (ix1 r)
      = max ⊥ ((Finset.univ : Finset (Fin 64)).fold max ⊥ fun j' => Ideal.div (tokScores x0 x1 r j') temperature) := by
  rw [val_main_v23_apply, val_main_v22_apply, val_main_cst_5_apply, foldAt]
  simp only [Ideal.maximumf_def, Ideal.ofBits_def, negInf]

/-- The exponential of a logit less the row's shift. -/
theorem expAt (x0 : (⟨S16x4096x128, .f32⟩ : BufTy).Contents (Elt Ideal))
    (x1 : (⟨S64x128, .f32⟩ : BufTy).Contents (Elt Ideal)) (r : Fin 65536) (j : Fin 64) :
    val_main_v27 (F := Ideal) x0 x1 (ix2 r j)
      = Ideal.exp (Ideal.div (tokScores x0 x1 r j) temperature
          - max ⊥ ((Finset.univ : Finset (Fin 64)).fold max ⊥ fun j' => Ideal.div (tokScores x0 x1 r j') temperature)) := by
  rw [val_main_v27_apply, val_main_v26_apply, val_main_v25_apply, val_main_v24_apply, idx24, shiftAt, logitAt]
  rfl

/-- The index chain of the softmax denominator: row `r`, lane `k`. -/
theorem idx28 (r : Fin 65536) (j k : Fin 64) :
    idx_main_v28 (idx_main_v29 (idx_main_v30 (ix2 r j))) k = ix2 r k :=
  funext fun a => Fin.ext (by match a with | ⟨0, _⟩ => rfl | ⟨1, _⟩ => rfl)

/-- The softmax weight of memory row `j` for token `r`. -/
theorem weightAt (x0 : (⟨S16x4096x128, .f32⟩ : BufTy).Contents (Elt Ideal))
    (x1 : (⟨S64x128, .f32⟩ : BufTy).Contents (Elt Ideal)) (r : Fin 65536) (j : Fin 64) :
    val_main_v31 (F := Ideal) x0 x1 (ix2 r j) = attention (tokScores x0 x1 r) j := by
  rw [val_main_v31_apply, val_main_v30_apply, val_main_v29_apply, val_main_v28_apply, val_main_cst_6_apply]
  simp only [idx28, expAt, Ideal.hostDivf_def, Ideal.ofBits_def, Ideal.ofBits_zero_f32, zero_add]
  rfl

/-- The weights' index in the weighted sum: token `r`, memory row `k`. -/
theorem lidx32 (r : Fin 65536) (q : Fin 128) (k : Fin 64) : lidx_main_v32 (ix2 r q) k = ix2 r k :=
  funext fun a => Fin.ext (by match a with | ⟨0, _⟩ => rfl | ⟨1, _⟩ => rfl)

/-- The memory rows' index in the weighted sum: memory row `k`, lane `q`. -/
theorem ridx32 (r : Fin 65536) (q : Fin 128) (k : Fin 64) : ridx_main_v32 (ix2 r q) k = ix2 k q :=
  funext fun a => Fin.ext (by match a with | ⟨0, _⟩ => rfl | ⟨1, _⟩ => rfl)

/-- The reference's `[65536, 128]` array before its last reshape is, row by row, the enhanced token. -/
theorem reference_rows (x0 : (⟨Cert.ReferenceIdeal.S16x4096x128, .f32⟩ : BufTy).Contents (Elt Ideal)) (x1 : (⟨Cert.ReferenceIdeal.S64x128, .f32⟩ : BufTy).Contents (Elt Ideal)) :
    Cert.ReferenceIdeal.Read.val_main_v33 (F := Ideal) x0 x1 = Cert.EmaMemory.enhancedTokens x0 x1 := by
  funext i
  obtain ⟨r, q, rfl⟩ : ∃ (r : Fin 65536) (q : Fin 128), i = ix2 r q := ⟨i 0, i 1, eq_ix2 i⟩
  rw [val_main_v33_apply, val_main_v32_apply]
  simp only [lidx32, ridx32, tokRow, weightAt, memRow, Ideal.addf_def]
  rfl

end Cert.EmaMemory.RefRows

end
-- ==== Proof.MemoryAlgebra.lean ====
/-
  The two spellings of the memory-attention step agree on rows of real numbers.

  On the extended reals the two functions of the specification differ only in how they are written: a division by
  `max (√n) D` against a product with `1 / √(max n D²)`, a division by the temperature `T` against a product with
  `1 / T`, and a softmax shifted by the largest entry against one shifted by a constant. For real inputs every
  intermediate value is a real number, so each step can be carried out in `ℝ`, where the three pairs are equal:
  `√` is monotone and `√(D²) = D` for `D ≥ 0`; `s / T = s · (1 / T)`; and a softmax does not depend on its shift,
  `exp (a - t) / ∑ exp (aᵢ - t) = exp a / ∑ exp aᵢ`.
-/
import proofs.«164682_g85598698209303_cont_9to1_m_192_6_alg».proof.Proof.MemorySpec
import Idealize.ShloMosaic.PureOps.Ideal
import Mathlib.Analysis.Real.Sqrt
import Mathlib.Analysis.SpecialFunctions.Exp
import Mathlib.Data.EReal.Basic
import Mathlib.Data.EReal.Operations
import Mathlib.Data.Finset.Fold
import Mathlib.Tactic.NormNum

noncomputable section

namespace Cert.EmaMemory

open Idealize.ShloMosaic

namespace Algebra

/-! ### The constants as real numbers -/

/-- The norm floor `D`, the dyadic nearest `1e-12`. -/
def floorR : ℝ := 2305843 / 2305843009213693952
/-- The temperature `T`, the dyadic nearest `0.07`. -/
def tempR : ℝ := 9395241 / 134217728

theorem floorR_pos : 0 < floorR := by unfold floorR; norm_num
theorem tempR_pos : 0 < tempR := by unfold tempR; norm_num

/-- Sign `0`, exponent field `87`, mantissa field `0x0CBCCC`: `(2²³ + 834764) · 2^(87 - 127 - 23)`. -/
theorem normFloor_eq : normFloor = (floorR : EReal) := by
  simp [normFloor, floorR, Ideal.ofBits, Ideal.ieee, -EReal.coe_mul]
  norm_num

/-- Sign `0`, exponent field `123`, mantissa field `0x0F5C29`: `(2²³ + 1006633) · 2^(123 - 127 - 23)`. -/
theorem temperature_eq : temperature = (tempR : EReal) := by
  simp [temperature, tempR, Ideal.ofBits, Ideal.ieee, -EReal.coe_mul]
  norm_num

theorem normFloorSq_eq : normFloorSq = ((floorR ^ 2 : ℝ) : EReal) := by
  unfold normFloorSq floorR; congr 1; norm_num

theorem invTemperature_eq : invTemperature = ((1 / tempR : ℝ) : EReal) := by
  unfold invTemperature tempR; congr 1; norm_num

/-! ### Coercion of finite sums and of `max` -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The squared norm of a real row is the coercion of the real squared norm. -/
theorem sumsq_coe (r : Fin 128 → ℝ) :
    ∑ k, (r k : EReal) * (r k : EReal) = ((∑ k, r k * r k : ℝ) : EReal) := by
  rw [coe_sum]; simp only [EReal.coe_mul]

theorem sumsq_nonneg (r : Fin 128 → ℝ) : 0 ≤ ∑ k, r k * r k :=
  Finset.sum_nonneg fun k _ => mul_self_nonneg (r k)

/-! ### The unit row -/

/-- The unit row of a real row, in `ℝ`. -/
def unitR (r : Fin 128 → ℝ) (d : Fin 128) : ℝ :=
  r d * (1 / max (Real.sqrt (∑ k, r k * r k)) floorR)

theorem unitRow_coe (r : Fin 128 → ℝ) (d : Fin 128) :
    unitRow (fun k => (r k : EReal)) d = (unitR r d : EReal) := by
  have hpos : 0 < max (Real.sqrt (∑ k, r k * r k)) floorR := lt_max_of_lt_right floorR_pos
  unfold unitRow unitR
  rw [sumsq_coe, Ideal.sqrt_coe, if_neg (not_lt.mpr (sumsq_nonneg r)), normFloor_eq, ← coe_max,
    Ideal.div_coe (ne_of_gt hpos), ← EReal.coe_mul]

/-- In `ℝ`: `(√(max n D²))⁻¹ = 1 / max (√n) D`, as `√` is monotone and `√(D²) = D`. -/
theorem inv_sqrt_max (n : ℝ) :
    (Real.sqrt (max n (floorR ^ 2)))⁻¹ = 1 / max (Real.sqrt n) floorR := by
  rw [Real.sqrt_monotone.map_max, Real.sqrt_sq floorR_pos.le, inv_eq_one_div]

theorem unitRowK_coe (r : Fin 128 → ℝ) (d : Fin 128) :
    unitRowK (fun k => (r k : EReal)) d = (unitR r d : EReal) := by
  have hpos : 0 < max (∑ k, r k * r k) (floorR ^ 2) := lt_max_of_lt_right (pow_pos floorR_pos 2)
  unfold unitRowK unitR
  rw [sumsq_coe, normFloorSq_eq, ← coe_max, Ideal.rsqrt_coe, if_neg (not_lt.mpr hpos.le),
    if_neg (ne_of_gt hpos), inv_sqrt_max, ← EReal.coe_mul]

/-! ### The scores -/

theorem scores_coe (u : Fin 128 → ℝ) (B : Fin 64 → Fin 128 → ℝ) (j : Fin 64) :
    scores (fun d => (u d : EReal)) (fun j' d => (B j' d : EReal)) j = ((∑ d, u d * B j d : ℝ) : EReal) := by
  unfold scores
  rw [coe_sum]; simp only [EReal.coe_mul]

/-! ### The softmax -/

/-- In `ℝ`, a softmax does not depend on its shift. -/
theorem softmax_shift (a : Fin 64 → ℝ) (t : ℝ) (j : Fin 64) :
    Real.exp (a j - t) * (1 / ∑ i, Real.exp (a i - t)) = Real.exp (a j) * (1 / ∑ i, Real.exp (a i)) := by
  have hS : 0 < ∑ i, Real.exp (a i) := Finset.sum_pos (fun i _ => Real.exp_pos _) Finset.univ_nonempty
  have hsum : ∑ i, Real.exp (a i - t) = (∑ i, Real.exp (a i)) / Real.exp t := by
    rw [Finset.sum_div]; exact Finset.sum_congr rfl fun i _ => Real.exp_sub _ _
  rw [hsum, Real.exp_sub]
  field_simp

/-- A softmax of real entries shifted by a real is the coercion of the unshifted real softmax. -/
theorem softmax_coe (a : Fin 64 → ℝ) (t : ℝ) (j : Fin 64) :
    Ideal.div (Ideal.exp ((a j : EReal) - (t : EReal))) (∑ i, Ideal.exp ((a i : EReal) - (t : EReal)))
      = ((Real.exp (a j) * (1 / ∑ i, Real.exp (a i)) : ℝ) : EReal) := by
  have hS : 0 < ∑ i, Real.exp (a i - t) := Finset.sum_pos (fun i _ => Real.exp_pos _) Finset.univ_nonempty
  simp only [← EReal.coe_sub, Ideal.exp_coe]
  rw [← coe_sum, Ideal.div_coe (ne_of_gt hS), ← EReal.coe_mul, softmax_shift]

/-- The largest of finitely many reals, taken in the extended reals from `⊥`, is a real. -/
theorem fold_max_coe (a : Fin 64 → ℝ) :
    ∃ m : ℝ, (Finset.univ : Finset (Fin 64)).fold max ⊥ (fun j => (a j : EReal)) = (m : EReal) := by
  have hbot : (Finset.univ : Finset (Fin 64)).fold max ⊥ (fun j => (a j : EReal)) ≠ ⊥ := by
    have h : ((a 0 : ℝ) : EReal) ≤ (Finset.univ : Finset (Fin 64)).fold max ⊥ (fun j => (a j : EReal)) :=
      (Finset.le_fold_max _).mpr (Or.inr ⟨0, Finset.mem_univ _, le_rfl⟩)
    exact ne_of_gt (lt_of_lt_of_le (EReal.bot_lt_coe _) h)
  have htop : (Finset.univ : Finset (Fin 64)).fold max ⊥ (fun j => (a j : EReal)) ≠ ⊤ :=
    ne_of_lt ((Finset.fold_max_lt _).mpr ⟨bot_lt_top, fun x _ => EReal.coe_lt_top _⟩)
  exact ⟨_, (EReal.coe_toReal htop hbot).symm⟩

/-- The real softmax weights of real scores `σ`: entries `σⱼ · (1 / T)`. -/
def softR (σ : Fin 64 → ℝ) (j : Fin 64) : ℝ :=
  Real.exp (σ j * (1 / tempR)) * (1 / ∑ i, Real.exp (σ i * (1 / tempR)))

theorem div_temperature_coe (s : ℝ) : Ideal.div (s : EReal) temperature = ((s * (1 / tempR) : ℝ) : EReal) := by
  rw [temperature_eq, Ideal.div_coe (ne_of_gt tempR_pos), ← EReal.coe_mul]

theorem attention_coe (σ : Fin 64 → ℝ) (j : Fin 64) :
    attention (fun j' => (σ j' : EReal)) j = (softR σ j : EReal) := by
  obtain ⟨m, hm⟩ := fold_max_coe fun j' => σ j' * (1 / tempR)
  unfold attention softR
  simp only [div_temperature_coe]
  rw [hm, max_eq_right bot_le]
  exact softmax_coe (fun j' => σ j' * (1 / tempR)) m j

theorem attentionK_coe (σ : Fin 64 → ℝ) (j : Fin 64) :
    attentionK (fun j' => (σ j' : EReal)) j = (softR σ j : EReal) := by
  unfold attentionK softR
  rw [invTemperature_eq]
  simp only [← EReal.coe_mul]
  exact softmax_coe (fun j' => σ j' * (1 / tempR)) (1 / tempR) j

end Algebra

open Algebra

/-! ### The two spellings agree -/

theorem enhancedK_eq_enhanced (x : Fin 128 → EReal) (M : Fin 64 → Fin 128 → EReal)
    (hx : ∀ d, ∃ r : ℝ, x d = (r : EReal)) (hM : ∀ j d, ∃ r : ℝ, M j d = (r : EReal)) (d : Fin 128) :
    enhancedK x M d = enhanced x M d := by
  choose rx hrx using hx
  choose rM hrM using hM
  obtain rfl : x = fun d => (rx d : EReal) := funext hrx
  obtain rfl : M = fun j d => (rM j d : EReal) := funext fun j => funext (hrM j)
  have hK : unitRowK (fun d => (rx d : EReal)) = fun d => (unitR rx d : EReal) :=
    funext (unitRowK_coe rx)
  have hU : unitRow (fun d => (rx d : EReal)) = fun d => (unitR rx d : EReal) :=
    funext (unitRow_coe rx)
  have hB : (fun j' => unitRow ((fun j d => (rM j d : EReal)) j')) = fun j' d => (unitR (rM j') d : EReal) :=
    funext fun j' => funext (unitRow_coe (rM j'))
  have hS : scores (fun d => (unitR rx d : EReal)) (fun j' d => (unitR (rM j') d : EReal))
      = fun j => ((∑ d, unitR rx d * unitR (rM j) d : ℝ) : EReal) :=
    funext (scores_coe (unitR rx) fun j' => unitR (rM j'))
  unfold enhancedK enhanced
  rw [hK, hU, hB, hS]
  simp only [attentionK_coe, attention_coe]

end Cert.EmaMemory

end
-- ==== Proof.KernelArray.lean ====
import proofs.«164682_g85598698209303_cont_9to1_m_192_6_alg».proof.Proof.Gen.KernelIdeal.Frame
import proofs.«164682_g85598698209303_cont_9to1_m_192_6_alg».proof.Proof.MemorySpec
import Idealize.ShloMosaic.Lib.Pipeline.Value
import Idealize.ShloMosaic.Lib.StableHlo.Run
import Idealize.ShloMosaic.Lib.ValueIdx

set_option maxRecDepth 16384

noncomputable section

namespace Cert.EmaMemory.KernelArray

open Cert.KernelIdeal Cert.KernelIdeal.Gen Idealize.ShloMosaic Idealize.ShloMosaic.TcCoe Idealize.SL.Sem
open Idealize.ShloMosaic.Pipeline (Dat)
open Idealize.ShloMosaic.ValueIdx
open Cert.EmaMemory

variable (m : (ℓ : Loc nD τ sig) → Buf (Elt Ideal) ℓ) (ρ : Dev nD → PrngReg)

/-- The flattened token array as the region finds it: the reshape of the first argument. -/
theorem tokens_entry (c : Dev nD) :
    (V m c main_call0_v0 : S65536x128.Idx → EReal)
      = shapeCast S65536x128 (m ((c : Thread nD τ).loc main_arg0)) shapeCasts_S16x4096x128_S65536x128 := by
  show StableHlo.after hostOps0 (fun b => m (c, b)) (Proc.devRef .tc main_call0_v0) = _
  after_results
  rfl

/-- Row `r`, lane `d` of the reshaped array is token `r`'s lane `d`. -/
theorem reshape_token (x0 : S16x4096x128.Idx → EReal) (r : Fin 65536) (d : Fin 128) :
    shapeCast S65536x128 x0 shapeCasts_S16x4096x128_S65536x128 (ix2 r d) = x0 (tokenIdx r d) :=
  shapeCast_apply x0 shapeCasts_S16x4096x128_S65536x128 (ix2 r d) (tokenIdx r d) (by
    rewrite [Shape.rowMajor_val_three, Shape.rowMajor_val_two]
    have hr : r.val < 65536 := r.isLt
    have hd : d.val < 128 := d.isLt
    show (r.val / 4096 * 4096 + r.val % 4096) * 128 + d.val = r.val * 128 + d.val
    omega)

/-- The whole `[65536, 128]` result in the spelling with the reciprocal root and the reciprocal temperature: row `r` is
    `enhancedK` of row `r` of `X` and the memory bank. -/
def rowsK (X : S65536x128.Idx → EReal) (Mb : S64x128.Idx → EReal) : S65536x128.Idx → EReal :=
  fun i => enhancedK (fun d => X (ix2 (i 0) d)) (fun j d => Mb (ix2 j d)) (i 1)

theorem origin_zero : (![0, 0] : Fin 2 → Nat) = fun _ => 0 := funext fun a => by fin_cases a <;> rfl

/-- The block indices over the grid: the token window and the result window sit at row block `t`, the memory bank's
    window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at row `p`, lane `q` of a block is `enhancedK` of that block row and the memory block. -/
abbrev RowLemma : Prop :=
  ∀ (xb : Vec Ideal S8192x128 .f32) (mb : Vec Ideal S64x128 .f32) (p : Fin 8192) (q : Fin 128),
    k0_pay1 (F := Ideal) xb mb (ix2 p q) = enhancedK (fun d => xb (ix2 p d)) (fun j d => mb (ix2 j d)) q

/-- What grid point `t` writes back is block `t` (rows `8192 t … 8192 t + 8191`) of `rowsK` of the arrays as the region
    finds them. -/
theorem flushed_eq (hrows : RowLemma) (c : Dev nD) (t : Fin cfg0.N) :
    (dats m 0 c).flushed 2 t
      = ((cfg0.win 2).blk t).view.read (Elt Ideal) (rowsK (V m c main_call0_v0) (V m c main_arg1)) := by
  show (cfg0.win 2).cut (grid0.coords t) ((dats m 0 c).after 2 t) = _
  rw [after0_2]
  unfold out0_2
  rw [View.canon_unit_zero origin_zero]
  simp only [View.ld_unit_zero (S := S8192x128) origin_zero, View.ld_unit_zero (S := S64x128) origin_zero]
  obtain ⟨e0, e1, e2, e3, e4, e5⟩ := idx_facts t
  funext y
  obtain ⟨p, q, rfl⟩ : ∃ (p : Fin 8192) (q : Fin 128), y = ix2 p q := ⟨y 0, y 1, eq_ix2 y⟩
  refine (hrows (iblk m c 0 t) (iblk m c 1 t) p q).trans ?_
  have hx : (fun d : Fin 128 => iblk m c 0 t (ix2 p d))
      = fun d : Fin 128 => V m c main_call0_v0 (ix2 ((((cfg0.win 2).blk t).view.emb (ix2 p q)) 0) d) := by
    funext d
    show V m c main_call0_v0 (((cfg0.win 0).blk t).view.emb (ix2 p d)) = _
    refine congrArg (V m c main_call0_v0) (funext fun a => Fin.ext ?_)
    match a with
    | ⟨0, _⟩ => show win0_0.index t (0 : Fin 2) * 8192 + 1 * p.val = win0_2.index t (0 : Fin 2) * 8192 + 1 * p.val; omega
    | ⟨1, _⟩ => show win0_0.index t (1 : Fin 2) * 128 + 1 * d.val = d.val; omega
  have hm : (fun (j : Fin 64) (d : Fin 128) => iblk m c 1 t (ix2 j d))
      = fun (j : Fin 64) (d : Fin 128) => V m c main_arg1 (ix2 j d) := by
    funext j d
    show V m c main_arg1 (((cfg0.win 1).blk t).view.emb (ix2 j d)) = _
    refine congrArg (V m c main_arg1) (funext fun a => Fin.ext ?_)
    match a with
    | ⟨0, _⟩ => show win0_1.index t (0 : Fin 2) * 64 + 1 * j.val = j.val; omega
    | ⟨1, _⟩ => show win0_1.index t (1 : Fin 2) * 128 + 1 * d.val = d.val; omega
  have hq : (((cfg0.win 2).blk t).view.emb (ix2 p q)) 1 = q :=
    Fin.ext (by show win0_2.index t (1 : Fin 2) * 128 + 1 * q.val = q.val; omega)
  show enhancedK (fun d : Fin 128 => iblk m c 0 t (ix2 p d)) (fun (j : Fin 64) (d : Fin 128) => iblk m c 1 t (ix2 j d)) q
      = enhancedK (fun d : Fin 128 => V m c main_call0_v0 (ix2 ((((cfg0.win 2).blk t).view.emb (ix2 p q)) 0) d))
          (fun (j : Fin 64) (d : Fin 128) => V m c main_arg1 (ix2 j d)) ((((cfg0.win 2).blk t).view.emb (ix2 p q)) 1)
  rw [hx, hm, hq]

/-- An index of the result array lies in point `t`'s block iff each coordinate lies in the block's range. -/
theorem mem_blk (t : Fin cfg0.N) (i : S65536x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_call0_v1).slice (win0_2.rect t)).set ↔ _
  rw [View.set_slice_whole, Rect.mem_set_unit]
  exact Iff.rfl

/-- The eight row blocks fill the array: row `i₀` lies in the block of point `i₀ / 8192`. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 8 := N_0
  obtain ⟨t, ht⟩ : ∃ t : Fin cfg0.N, t.val = (i 0).val / 8192 := ⟨⟨(i 0).val / 8192, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- The result array after the region: `rowsK` of the arrays as the region finds them. -/
theorem result_array (hrows : RowLemma) (c : Dev nD) :
    (dats m 0 c).arrAt 2 cfg0.N = rowsK (V m c main_call0_v0) (V m c main_arg1) :=
  (dats m 0 c).arrAt_eq_of_cover 2 _ (fun t _ => flushed_eq m hrows c t) cover

/-- The program's result: the reshape after the region, applied to the region's result array. -/
theorem result_tail (c : Dev nD) :
    (Pipeline.afterTail₀ cfgs (dats m) 0 (V0 m) [hostOps1] c main_v0 : S16x4096x128.Idx → EReal)
      = shapeCast S16x4096x128 ((dats m 0 c).arrAt 2 cfg0.N) shapeCasts_S65536x128_S16x4096x128 := by
  unfold Pipeline.afterTail₀
  show StableHlo.after hostOps1 _ (Proc.devRef .tc main_v0) = _
  after_results
  exact congrArg (fun a => shapeCast S16x4096x128 a shapeCasts_S65536x128_S16x4096x128)
    (Pipeline.withArrays_arr spec0 launch0.win.arr_inj c _ _ 2)

/-- The kernel program's run, read: every weakly fair execution terminates with the result at the reshape of `rowsK` of
    the reshaped tokens and the memory bank, and both arguments unchanged. -/
theorem run (hrows : RowLemma) :
    θ_run defs (onTc (τ := τ) (main (F := Ideal))) ⟨m, fun _ => 0, ρ⟩ fun r => ∀ c : Dev nD,
      r.2.mem ((c.tc : Thread nD τ).loc main_v0)
          = shapeCast S16x4096x128
              (rowsK (shapeCast S65536x128 (m ((c.tc : Thread nD τ).loc main_arg0)) shapeCasts_S16x4096x128_S65536x128)
                (m ((c.tc : Thread nD τ).loc main_arg1)))
              shapeCasts_S65536x128_S16x4096x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 (by decide) (by decide))).trans
        ((result_tail m c).trans (by rw [result_array m hrows c, tokens_entry m c, V_main_arg1 m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.EmaMemory.KernelArray

end
-- ==== Proof.FiniteInputs.lean ====
/-
  The precondition, read: it is the conjunction of two `all (|x| < +∞)` tests, one per input array, so when it holds
  every entry of both arrays is a real number.
-/
import proofs.«164682_g85598698209303_cont_9to1_m_192_6_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.EmaMemory.Finite

open Idealize.ShloMosaic Cert.Pre_finite_inputs

instance : Subsingleton S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The word `0x7F800000` denotes `+∞`. -/
theorem inf_word : Ideal.ofBits .f32 0x7F800000#32 = ⊤ := by simp [Ideal.ofBits, Ideal.ieee]

/-- A one-bit word made from a truth value is `1` only when the value is true. -/
theorem true_of_bit {b : Bool} (h : BitVec.ofBool b = 1#1) : b = true := by
  revert h; cases b <;> decide

/-- A passed `|x| < +∞` test makes `x` a real number. -/
theorem real_of_test (x : EReal) (h : Ideal.cmp .olt (max x (-x)) (Ideal.ofBits .f32 0x7F800000#32) = 1#1) :
    ∃ r : ℝ, x = (r : EReal) := by
  rw [inf_word] at h
  have hb : decide (max x (-x) < ⊤) = true :=
    true_of_bit (h : BitVec.ofBool (decide (max x (-x) < (⊤ : EReal))) = 1#1)
  exact real_of_abs_lt_top x (of_decide_eq_true hb)

/-- Where the precondition holds, both arrays hold real numbers only. -/
theorem real_of_pre (a0 : FVec Ideal S16x4096x128 .f32) (a1 : FVec Ideal S64x128 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.mp h0
  refine ⟨fun i => ?_, fun i => ?_⟩
  · exact real_of_test (a0 i) (Host.reduce_andi_all _ _ _ _ _ h1 i)
  · exact real_of_test (a1 i) (Host.reduce_andi_all _ _ _ _ _ h2 i)

end Cert.EmaMemory.Finite

end
-- ==== Proof.Claims.lean ====
/-
  The claims, from the parts: the kernel program's result array (the region's blocks put together, then reshaped), the
  reference program's result (its operations read one at a time), the precondition read as "every entry is real", and
  the algebra that makes the two spellings of the memory-attention step one function on real rows.
-/
import proofs.«164682_g85598698209303_cont_9to1_m_192_6_alg».proof.Defs
import proofs.«164682_g85598698209303_cont_9to1_m_192_6_alg».proof.Proof.Gen.Kernel.Frame
import proofs.«164682_g85598698209303_cont_9to1_m_192_6_alg».proof.Proof.Gen.KernelIdeal.Frame
import proofs.«164682_g85598698209303_cont_9to1_m_192_6_alg».proof.Proof.Gen.ReferenceIdeal.Run
import proofs.«164682_g85598698209303_cont_9to1_m_192_6_alg».proof.Proof.Gen.ReferenceIdeal.Read
import proofs.«164682_g85598698209303_cont_9to1_m_192_6_alg».proof.Proof.Gen.Pre_finite_inputs
import proofs.«164682_g85598698209303_cont_9to1_m_192_6_alg».proof.Proof.MemorySpec
import proofs.«164682_g85598698209303_cont_9to1_m_192_6_alg».proof.Proof.MemoryAlgebra
import proofs.«164682_g85598698209303_cont_9to1_m_192_6_alg».proof.Proof.KernelArray
import proofs.«164682_g85598698209303_cont_9to1_m_192_6_alg».proof.Proof.FiniteInputs

noncomputable section

namespace Cert.EmaMemory.Claims

open Idealize.ShloMosaic Idealize.ShloMosaic.TcCoe Idealize.SL.Sem Idealize.ShloMosaic.ValueIdx
open Cert.EmaMemory

/-- The two named constants of the idealized kernel are the table's values: the square of the norm floor and the
    reciprocal of the temperature, the latter at both places it is used. -/
theorem preserves : Cert.preserves_Kernel_KernelIdeal :=
  ⟨IdealRules.named_const.statement Cert.KernelIdeal.κ "eps_squared" .f32 0x179ABE15#32 _ rfl,
    IdealRules.named_const.statement Cert.KernelIdeal.κ "inv_temperature" .f32 0x41649249#32 _ rfl,
    IdealRules.named_const.statement Cert.KernelIdeal.κ "inv_temperature" .f32 0x41649249#32 _ rfl⟩

/-- On arrays of real numbers the kernel's whole-array function of the reshaped tokens is `enhancedTokens`. -/
theorem rowsK_eq_tokens (x0 : Cert.KernelIdeal.S16x4096x128.Idx → EReal) (x1 : Cert.KernelIdeal.S64x128.Idx → EReal)
    (h0 : ∀ i, ∃ r : ℝ, x0 i = (r : EReal)) (h1 : ∀ i, ∃ r : ℝ, x1 i = (r : EReal)) :
    KernelArray.rowsK (shapeCast Cert.KernelIdeal.S65536x128 x0 Cert.KernelIdeal.Facts₀.shapeCasts_S16x4096x128_S65536x128) x1
      = enhancedTokens x0 x1 := by
  funext i
  unfold KernelArray.rowsK enhancedTokens
  rw [show (fun d : Fin 128 => shapeCast Cert.KernelIdeal.S65536x128 x0
        Cert.KernelIdeal.Facts₀.shapeCasts_S16x4096x128_S65536x128 (ix2 (i 0) d))
      = fun d : Fin 128 => x0 (tokenIdx (i 0) d) from funext fun d => KernelArray.reshape_token x0 (i 0) d]
  exact enhancedK_eq_enhanced _ _ (fun d => h0 _) (fun j d => h1 _) (i 1)

/-- The reference program's value before its last reshape, row by row. -/
abbrev RefLemma : Prop :=
  ∀ (x0 : (⟨Cert.ReferenceIdeal.S16x4096x128, .f32⟩ : BufTy).Contents (Elt Ideal))
    (x1 : (⟨Cert.ReferenceIdeal.S64x128, .f32⟩ : BufTy).Contents (Elt Ideal)),
    Cert.ReferenceIdeal.Read.val_main_v33 (F := Ideal) x0 x1 = enhancedTokens x0 x1

/-- Both idealized programs, from memories that agree on the two arguments, end with the reshape of
    `enhancedTokens` of the arguments: the kernel's by its blocks and the algebra on real rows, the reference's by its
    operations read in order. -/
theorem algebraic (hrows : KernelArray.RowLemma) (href : RefLemma) : Cert.algebraic_KernelIdeal_ReferenceIdeal := by
  intro m ρ m' ρ' hpre hagree
  refine ⟨fun c => shapeCast Cert.KernelIdeal.S16x4096x128
      (enhancedTokens (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Facts₀.shapeCasts_S65536x128_S16x4096x128, ?_, ?_⟩
  · refine (θ_run Cert.KernelIdeal.defs _ _).mono (fun r h c => ⟨(h c).1.trans ?_, (h c).2⟩) (KernelArray.run m ρ hrows)
    obtain ⟨h0, h1⟩ := Finite.real_of_pre _ _ (hpre c)
    rw [rowsK_eq_tokens _ _ h0 h1]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, (hagree c).1, (hagree c).2]
    unfold Cert.ReferenceIdeal.Read.val_main_v34
    rw [href]

end Cert.EmaMemory.Claims

end
-- ==== Proof.lean ====
/-
  Memory attention over a small bank: each of the 65536 token rows (128 lanes) is scaled to unit length, its
  similarities with the 64 unit-length memory rows are turned into softmax weights at temperature `T`, and the weighted
  sum of the unit memory rows is added to the unit row.

  The kernel computes this a block of 8192 rows at a time, scaling a row by `1 / √(max ‖x‖² D²)`, scaling the
  similarities by `1 / T` and shifting the softmax by the constant `1 / T`; the reference divides by `max ‖x‖ D`,
  divides the similarities by `T` and shifts the softmax by the row maximum. With the kernel's two folded constants read
  as the exact `D²` and `1 / T` of the reference's own `D` and `T`, the two are one function of real inputs:
  `√` is monotone with `√(D²) = D`, a quotient by `T` is the product with `1 / T`, and a softmax does not depend on its
  shift (MemoryAlgebra). The kernel's result array is its eight row blocks put together and reshaped (KernelRows for a
  block's rows, KernelArray for the array); the reference's is its operations read in order (ReferenceRows); the
  precondition says every input entry is real (FiniteInputs); Claims joins them.
-/
import proofs.«164682_g85598698209303_cont_9to1_m_192_6_alg».proof.Defs
import proofs.«164682_g85598698209303_cont_9to1_m_192_6_alg».proof.Proof.Gen.Kernel
import proofs.«164682_g85598698209303_cont_9to1_m_192_6_alg».proof.Proof.Gen.Kernel.Skeleton
import proofs.«164682_g85598698209303_cont_9to1_m_192_6_alg».proof.Proof.Gen.Kernel.Launch
import proofs.«164682_g85598698209303_cont_9to1_m_192_6_alg».proof.Proof.Gen.Kernel.Points
import proofs.«164682_g85598698209303_cont_9to1_m_192_6_alg».proof.Proof.Gen.Kernel.Frame
import proofs.«164682_g85598698209303_cont_9to1_m_192_6_alg».proof.Proof.Gen.KernelIdeal
import proofs.«164682_g85598698209303_cont_9to1_m_192_6_alg».proof.Proof.Gen.KernelIdeal.Skeleton
import proofs.«164682_g85598698209303_cont_9to1_m_192_6_alg».proof.Proof.Gen.KernelIdeal.Launch
import proofs.«164682_g85598698209303_cont_9to1_m_192_6_alg».proof.Proof.Gen.KernelIdeal.Points
import proofs.«164682_g85598698209303_cont_9to1_m_192_6_alg».proof.Proof.Gen.KernelIdeal.Frame
import proofs.«164682_g85598698209303_cont_9to1_m_192_6_alg».proof.Proof.Gen.ReferenceIdeal
import proofs.«164682_g85598698209303_cont_9to1_m_192_6_alg».proof.Proof.Gen.Pre_finite_inputs
import proofs.«164682_g85598698209303_cont_9to1_m_192_6_alg».proof.Proof.Gen.ReferenceIdeal.Run
import proofs.«164682_g85598698209303_cont_9to1_m_192_6_alg».proof.Proof.Gen.ReferenceIdeal.Read
import proofs.«164682_g85598698209303_cont_9to1_m_192_6_alg».proof.Proof.KernelRows
import proofs.«164682_g85598698209303_cont_9to1_m_192_6_alg».proof.Proof.ReferenceRows
import proofs.«164682_g85598698209303_cont_9to1_m_192_6_alg».proof.Proof.Claims
import Idealize.ShloMosaic.Adequacy
import Idealize.ShloMosaic.Init

noncomputable section

namespace Cert.Proof

open Idealize.ShloMosaic Idealize.SL.Sem Cert.Kernel

/-- The three programs run and keep their arguments (the two kernels' frames; the reference's run with its result
    dropped), the two named constants are the table's values, and the two idealized programs end with equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  Cert.EmaMemory.Claims.preserves,
  Cert.EmaMemory.Claims.algebraic Cert.EmaMemory.KernelRows.kernel_rows Cert.EmaMemory.RefRows.reference_rows⟩

end Cert.Proof

end
